-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S4x2048x16 : Shape := ⟨3, ![4, 2048, 16]⟩
abbrev S_ : Shape := ⟨0, ![]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096, .f32⟩
  | .hbm, ⟨6, _⟩ => ⟨S4x2048x4096, .f32⟩
  | .hbm, ⟨7, _⟩ => ⟨S4x2048x16, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4096 : S_.BroadcastsInDim S4096 (![] : Fin 0 → Fin S4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one run of the kernel body leaves behind, as values.

  The body keeps two accumulators across the eight steps of the contraction axis: the base product's [1024, 1024] tile and
  the low-rank product's [1024, 16] tile. At the first step it zeroes both and then adds the step's partial products
  (`baseFirst`, `lowFirst`); at every later step it adds them to what the step before left (`baseMid`, `lowMid`,
  `baseLast`, `lowLast`); and at the last step it also writes the output tile from the two freshly updated accumulators, the
  adapter-up block and the two bias rows (`outLast`). Each is the value of the one store that covers the buffer last,
  with every load of a whole buffer read as the buffer's contents; the read-back of an accumulator inside the same step
  returns what that step stored.
-/
import proofs.«121367_j52819507806382_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step: the base accumulator is zeroed, read back, and gets the step's partial product. -/
theorem baseFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : cond0_0 i) (hc1 : ¬cond0_1 i) (x0 : Vec F S1024x512 .f32) (x1 : Vec F S1024x512 .f32) (x2 : Vec F S16x512 .f32) (x3 : Vec F S1024x16 .f32) (x4 : Vec F S1x1024 .f32) (x5 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- First step: the low-rank accumulator is zeroed, read back, and gets the step's partial product. -/
theorem lowFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : cond0_0 i) (hc1 : ¬cond0_1 i) (x0 : Vec F S1024x512 .f32) (x1 : Vec F S1024x512 .f32) (x2 : Vec F S16x512 .f32) (x3 : Vec F S1024x16 .f32) (x4 : Vec F S1x1024 .f32) (x5 : Vec F S1x1024 .f32) :
    sout0_A_1 c i arg3 harg3 arg4 harg4 arg5 harg5 arg6 harg6 arg7 harg7 arg8 harg8 arg9 harg9 arg10 harg10 arg11 harg11 hc0 hc1 x0 x1 x2 x3 x4 x5 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- A middle step adds its partial product to what the base accumulator held. -/
theorem baseMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : ¬cond0_0 i) (hc1 : ¬cond0_1 i) (x0 : Vec F S1024x512 .f32) (x1 : Vec F S1024x512 .f32) (x2 : Vec F S16x512 .f32) (x3 : Vec F S1024x16 .f32) (x4 : Vec F S1x1024 .f32) (x5 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- A middle step adds its partial product to what the low-rank accumulator held. -/
theorem lowMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : ¬cond0_0 i) (hc1 : ¬cond0_1 i) (x0 : Vec F S1024x512 .f32) (x1 : Vec F S1024x512 .f32) (x2 : Vec F S16x512 .f32) (x3 : Vec F S1024x16 .f32) (x4 : Vec F S1x1024 .f32) (x5 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- The last step updates the base accumulator like a middle one. -/
theorem baseLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (x5 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- The last step updates the low-rank accumulator like a middle one. -/
theorem lowLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (x5 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- The last step's output tile: the epilogue of the two accumulators as this step has just updated them. -/
theorem outLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x16 .f32) (harg11 : arg11.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (x5 : Vec F S1x1024 .f32) (xs0 : Vec F S1024x1024 .f32) (xs1 : Vec F S1024x16 .f32) :
    out0_C_6 c i arg3 harg3 arg4 harg4 arg5 harg5 arg6 harg6 arg7 harg7 arg8 harg8 arg9 harg9 arg10 harg10 arg11 harg11 hc0 hc1 x0 x1 x2 x3 x4 x5 xs0 xs1 = k0_pay6 x3 (k0_pay5 x0 x2 xs1) (k0_pay4 x0 x1 xs0) x4 x5 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

end Cert.KernelIdeal.Pieces

end
-- ==== Proof.Blocks.lean ====
/-
  Where the kernel's blocks sit in the arrays, and what the flattened arrays hold.

  A grid point `t` of the 8 × 4 × 8 grid is row tile `t / 32`, column tile `(t / 8) % 4` and contraction step `t % 8`.
  At `t` the activations' block is rows `1024·(t/32) + p` and input features `512·(t%8) + k` of the flattened
  [8192, 4096] activations; the weight block is output features `1024·((t/8)%4) + q` and the same input features; the
  adapter-down block all 16 ranks and the same input features; the adapter-up block the column tile's output features and
  all ranks; the two bias rows the column tile's output features. The flattened activations at row `2048·b + s` are the
  activations at `(b, s)`, and the two [1, 4096] rows are the two bias vectors.
-/
import proofs.«121367_j52819507806382_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-! ## Tiles of a grid point -/

theorem lt256 (t : Fin cfg0.N) : t.val < 256 := lt_of_lt_of_eq t.isLt N_0

/-- Row `p` of the point's row tile, in the flattened activations. -/
def rowOf (t : Fin cfg0.N) (p : Fin 1024) : Fin 8192 := ⟨t.val / 32 * 1024 + p.val, by have := lt256 t; have := p.isLt; omega⟩
/-- Output feature `q` of the point's column tile. -/
def colOf (t : Fin cfg0.N) (q : Fin 1024) : Fin 4096 := ⟨t.val / 8 % 4 * 1024 + q.val, by have := q.isLt; omega⟩
/-- Input feature `k` of the point's contraction step. -/
def kOf (t : Fin cfg0.N) (k : Fin 512) : Fin 4096 := ⟨t.val % 8 * 512 + k.val, by have := k.isLt; omega⟩

/-- The block indices of the seven windows, over the whole grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = 0 ∧ win0_5.index t (1 : Fin 2) = t.val / 8 % 4
    ∧ win0_6.index t (0 : Fin 2) = t.val / 32 ∧ win0_6.index t (1 : Fin 2) = t.val / 8 % 4 :=
  (by decide +kernel : ∀ t : Fin grid0.N, _)

/-! ## The blocks and the arrays at their literal types -/

abbrev xblk (c : Dev nD) (t : Fin cfg0.N) : Vec F S1024x512 .f32 := iblk m c 0 t
abbrev wblk (c : Dev nD) (t : Fin cfg0.N) : Vec F S1024x512 .f32 := iblk m c 1 t
abbrev ablk (c : Dev nD) (t : Fin cfg0.N) : Vec F S16x512 .f32 := iblk m c 2 t
abbrev bblk (c : Dev nD) (t : Fin cfg0.N) : Vec F S1024x16 .f32 := iblk m c 3 t
abbrev biasblk (c : Dev nD) (t : Fin cfg0.N) : Vec F S1x1024 .f32 := iblk m c 4 t
abbrev dbblk (c : Dev nD) (t : Fin cfg0.N) : Vec F S1x1024 .f32 := iblk m c 5 t

abbrev Xarr (c : Dev nD) : Vec F S8192x4096 .f32 := V m c main_v0
abbrev Warr (c : Dev nD) : Vec F S4096x4096 .f32 := V m c main_arg1
abbrev Aarr (c : Dev nD) : Vec F S16x4096 .f32 := V m c main_arg4
abbrev Barr (c : Dev nD) : Vec F S4096x16 .f32 := V m c main_arg3
abbrev b2arr (c : Dev nD) : Vec F S1x4096 .f32 := V m c main_v1
abbrev d2arr (c : Dev nD) : Vec F S1x4096 .f32 := V m c main_v2

/-! ## A block's element is the array's -/

theorem xblk_apply (c : Dev nD) (t : Fin cfg0.N) (p : Fin 1024) (k : Fin 512) :
    xblk m c t (ix2 p k) = Xarr m c (ix2 (rowOf t p) (kOf t k)) := by
  show iblk m c 0 t (ix2 p k) = _
  unfold iblk
  rw [View.read_apply]
  show V m c main_v0 _ = V m c main_v0 _
  congr 1
  funext a
  apply Fin.ext
  match a with
  | ⟨0, _⟩ => show win0_0.index t 0 * 1024 + 1 * p.val = t.val / 32 * 1024 + p.val; rw [(idx_facts t).1]; omega
  | ⟨1, _⟩ => show win0_0.index t 1 * 512 + 1 * k.val = t.val % 8 * 512 + k.val; rw [(idx_facts t).2.1]; omega

theorem wblk_apply (c : Dev nD) (t : Fin cfg0.N) (q : Fin 1024) (k : Fin 512) :
    wblk m c t (ix2 q k) = Warr m c (ix2 (colOf t q) (kOf t k)) := by
  show iblk m c 1 t (ix2 q k) = _
  unfold iblk
  rw [View.read_apply]
  show V m c main_arg1 _ = V m c main_arg1 _
  congr 1
  funext a
  apply Fin.ext
  match a with
  | ⟨0, _⟩ => show win0_1.index t 0 * 1024 + 1 * q.val = t.val / 8 % 4 * 1024 + q.val; rw [(idx_facts t).2.2.1]; omega
  | ⟨1, _⟩ => show win0_1.index t 1 * 512 + 1 * k.val = t.val % 8 * 512 + k.val; rw [(idx_facts t).2.2.2.1]; omega

theorem ablk_apply (c : Dev nD) (t : Fin cfg0.N) (r : Fin 16) (k : Fin 512) :
    ablk m c t (ix2 r k) = Aarr m c (ix2 r (kOf t k)) := by
  show iblk m c 2 t (ix2 r k) = _
  unfold iblk
  rw [View.read_apply]
  show V m c main_arg4 _ = V m c main_arg4 _
  congr 1
  funext a
  apply Fin.ext
  match a with
  | ⟨0, _⟩ => show win0_2.index t 0 * 16 + 1 * r.val = r.val; rw [(idx_facts t).2.2.2.2.1]; omega
  | ⟨1, _⟩ => show win0_2.index t 1 * 512 + 1 * k.val = t.val % 8 * 512 + k.val; rw [(idx_facts t).2.2.2.2.2.1]; omega

theorem bblk_apply (c : Dev nD) (t : Fin cfg0.N) (q : Fin 1024) (r : Fin 16) :
    bblk m c t (ix2 q r) = Barr m c (ix2 (colOf t q) r) := by
  show iblk m c 3 t (ix2 q r) = _
  unfold iblk
  rw [View.read_apply]
  show V m c main_arg3 _ = V m c main_arg3 _
  congr 1
  funext a
  apply Fin.ext
  match a with
  | ⟨0, _⟩ => show win0_3.index t 0 * 1024 + 1 * q.val = t.val / 8 % 4 * 1024 + q.val; rw [(idx_facts t).2.2.2.2.2.2.1]; omega
  | ⟨1, _⟩ => show win0_3.index t 1 * 16 + 1 * r.val = r.val; rw [(idx_facts t).2.2.2.2.2.2.2.1]; omega

theorem biasblk_apply (c : Dev nD) (t : Fin cfg0.N) (q : Fin 1024) :
    biasblk m c t (ix2 (0 : Fin 1) q) = b2arr m c (ix2 (0 : Fin 1) (colOf t q)) := by
  show iblk m c 4 t (ix2 (0 : Fin 1) q) = _
  unfold iblk
  rw [View.read_apply]
  show V m c main_v1 _ = V m c main_v1 _
  congr 1
  funext a
  apply Fin.ext
  match a with
  | ⟨0, _⟩ => show win0_4.index t 0 * 1 + 1 * 0 = 0; rw [(idx_facts t).2.2.2.2.2.2.2.2.1]
  | ⟨1, _⟩ => show win0_4.index t 1 * 1024 + 1 * q.val = t.val / 8 % 4 * 1024 + q.val; rw [(idx_facts t).2.2.2.2.2.2.2.2.2.1]; omega

theorem dbblk_apply (c : Dev nD) (t : Fin cfg0.N) (q : Fin 1024) :
    dbblk m c t (ix2 (0 : Fin 1) q) = d2arr m c (ix2 (0 : Fin 1) (colOf t q)) := by
  show iblk m c 5 t (ix2 (0 : Fin 1) q) = _
  unfold iblk
  rw [View.read_apply]
  show V m c main_v2 _ = V m c main_v2 _
  congr 1
  funext a
  apply Fin.ext
  match a with
  | ⟨0, _⟩ => show win0_5.index t 0 * 1 + 1 * 0 = 0; rw [(idx_facts t).2.2.2.2.2.2.2.2.2.2.1]
  | ⟨1, _⟩ => show win0_5.index t 1 * 1024 + 1 * q.val = t.val / 8 % 4 * 1024 + q.val; rw [(idx_facts t).2.2.2.2.2.2.2.2.2.2.2.1]; omega

/-! ## The arrays the host lines before the call wrote -/

/-- The flattened activations are the activations re-laid row-major. -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_v0) = _
  after_results
  rfl

theorem b2arr_eq (c : Dev nD) :
    b2arr m c = shapeCast S1x4096 (m ((c : Thread nD τ).loc main_arg2)) shapeCasts_S4096_S1x4096 := by
  show StableHlo.after hostOps0 (fun b => m (c, b)) (Proc.devRef .tc main_v1) = _
  after_results
  rfl

theorem d2arr_eq (c : Dev nD) :
    d2arr m c = shapeCast S1x4096 (m ((c : Thread nD τ).loc main_arg5)) shapeCasts_S4096_S1x4096 := by
  show StableHlo.after hostOps0 (fun b => m (c, b)) (Proc.devRef .tc main_v2) = _
  after_results
  rfl

/-- Row `2048·b + s` of the flattened activations is position `(b, s)`. -/
theorem Xarr_apply (c : Dev nD) (b : Fin 4) (s : Fin 2048) (κ : Fin 4096) (r : Fin 8192) (hr : r.val = b.val * 2048 + s.val) :
    Xarr m c (ix2 r κ) = m ((c : Thread nD τ).loc main_arg0) (ix3 b s κ) := by
  rw [Xarr_eq]
  refine shapeCast_apply _ _ (ix2 r κ) (ix3 b s κ) ?_
  rw [Shape.rowMajor_val_three, Shape.rowMajor_val_two]
  show (b.val * 2048 + s.val) * 4096 + κ.val = r.val * 4096 + κ.val
  rw [hr]

theorem b2arr_apply (c : Dev nD) (o : Fin 4096) :
    b2arr m c (ix2 (0 : Fin 1) o) = m ((c : Thread nD τ).loc main_arg2) (ix1 o) := by
  rw [b2arr_eq]
  refine shapeCast_apply _ _ (ix2 (0 : Fin 1) o) (ix1 o) ?_
  rw [Shape.rowMajor_val_one, Shape.rowMajor_val_two]
  show o.val = 0 * 4096 + o.val
  omega

theorem d2arr_apply (c : Dev nD) (o : Fin 4096) :
    d2arr m c (ix2 (0 : Fin 1) o) = m ((c : Thread nD τ).loc main_arg5) (ix1 o) := by
  rw [d2arr_eq]
  refine shapeCast_apply _ _ (ix2 (0 : Fin 1) o) (ix1 o) ?_
  rw [Shape.rowMajor_val_one, Shape.rowMajor_val_two]
  show o.val = 0 * 4096 + o.val
  omega

theorem Warr_eq (c : Dev nD) : Warr m c = m ((c : Thread nD τ).loc main_arg1) := V_main_arg1 m c
theorem Aarr_eq (c : Dev nD) : Aarr m c = m ((c : Thread nD τ).loc main_arg4) := V_main_arg4 m c
theorem Barr_eq (c : Dev nD) : Barr m c = m ((c : Thread nD τ).loc main_arg3) := V_main_arg3 m c

end Cert.KernelIdeal.Blocks

end
-- ==== Proof.Steps.lean ====
/-
  The two accumulators and the output tile, point by point.

  At the first contraction step of a tile (`t % 8 = 0`) each accumulator is the step's partial product over zero
  (`base_first`, `low_first`); at every other step it is the step's partial product over what the point before left
  (`base_next`, `low_next`), whether or not the step is the last; and at the last step (`t % 8 = 7`) the output tile is the
  epilogue of the two accumulators as that step leaves them (`out_last`).
-/
import proofs.«121367_j52819507806382_1_alg».proof.Proof.Pieces
import proofs.«121367_j52819507806382_1_alg».proof.Proof.Blocks

noncomputable section

open Idealize.ShloMosaic Idealize.ShloMosaic.TcCoe Idealize.SL.Sem

namespace Cert.KernelIdeal.Steps

open Cert.KernelIdeal Cert.KernelIdeal.Gen Cert.KernelIdeal.Blocks Cert.KernelIdeal.Pieces

variable {F : FTy → Type} [FloatOps F]
variable (m : (ℓ : Loc nD τ sig) → Buf (Elt F) ℓ)

theorem base_first (c : Dev nD) (t : Fin cfg0.N) (h0 : t.val % 8 = 0) (h1 : ¬t.val % 8 = 7) :
    (outsAt0 m c t.val t.isLt).2.1 = k0_pay4 (xblk m c t) (wblk m c t) (k0_pay1 (F := F)) := by
  rw [outsAt0_A m c t h0 h1]; dsimp only
  exact baseFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem low_first (c : Dev nD) (t : Fin cfg0.N) (h0 : t.val % 8 = 0) (h1 : ¬t.val % 8 = 7) :
    (outsAt0 m c t.val t.isLt).2.2 = k0_pay5 (xblk m c t) (ablk m c t) (k0_pay2 (F := F)) := by
  rw [outsAt0_A m c t h0 h1]; dsimp only
  exact lowFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem base_next (c : Dev nD) (t : Fin cfg0.N) (h0 : ¬t.val % 8 = 0) :
    (outsAt0 m c t.val t.isLt).2.1 = k0_pay4 (xblk m c t) (wblk m c t) (outsAt0 m c (t.val - 1) (Nat.lt_of_le_of_lt (Nat.sub_le _ _) t.isLt)).2.1 := by
  by_cases h1 : t.val % 8 = 7
  · rw [outsAt0_C m c t h0 h1]; dsimp only
    exact baseLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    exact baseMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem low_next (c : Dev nD) (t : Fin cfg0.N) (h0 : ¬t.val % 8 = 0) :
    (outsAt0 m c t.val t.isLt).2.2 = k0_pay5 (xblk m c t) (ablk m c t) (outsAt0 m c (t.val - 1) (Nat.lt_of_le_of_lt (Nat.sub_le _ _) t.isLt)).2.2 := by
  by_cases h1 : t.val % 8 = 7
  · rw [outsAt0_C m c t h0 h1]; dsimp only
    exact lowLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    exact lowMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem out_last (c : Dev nD) (t : Fin cfg0.N) (h0 : ¬t.val % 8 = 0) (h1 : t.val % 8 = 7) :
    (outsAt0 m c t.val t.isLt).1
      = k0_pay6 (bblk m c t) (outsAt0 m c t.val t.isLt).2.2 (outsAt0 m c t.val t.isLt).2.1 (biasblk m c t) (dbblk m c t) := by
  rw [base_next m c t h0, low_next m c t h0]
  rw [outsAt0_C m c t h0 h1]; dsimp only
  exact outLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.PayIdx.lean ====
/-
  The kernel body's arithmetic read at one element, over the extended reals.

  Each of the body's three matrix products contracts the second axis of both operands, so its element `(p, q)` is
  `Σ_k l[p, k] · r[q, k]` (`matW_apply` for the activations against a weight slab, `matA_apply` against an adapter-down slab,
  `matB_apply` for the low-rank intermediate against the adapter-up block); a change of float format is the identity. So the
  accumulator update adds one slab's partial dot product (`pay4_apply`, `pay5_apply`), the reset stores zero
  (`pay1_apply`, `pay2_apply`), and the epilogue is `((acc + 2·(xa · Bᵀ)) + bias) + 2·δ` with the two row vectors broadcast
  down the rows (`pay6_apply`).
-/
import proofs.«121367_j52819507806382_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-! ## Where each product's operands are read -/

theorem lW_0 (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lW_1 (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem rW_0 (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rW_1 (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

theorem lA_0 (i : S1024x16.Idx) (q : dot_S1024x512_S16x512_S1024x16_1_1_0_0_n_n.contr.Idx) : (dot_S1024x512_S16x512_S1024x16_1_1_0_0_n_n.lhsIdx i q 0).val = (i 0).val := by
  unfold DotDims.lhsIdx
  rw [dif_neg (show ¬(0 : Fin S1024x512.rank) ∈ dot_S1024x512_S16x512_S1024x16_1_1_0_0_n_n.lhsBatch by decide), dif_pos (show (0 : Fin S1024x512.rank) ∈ dot_S1024x512_S16x512_S1024x16_1_1_0_0_n_n.lhsNonContracting by decide)]
  rfl
theorem lA_1 (i : S1024x16.Idx) (q : dot_S1024x512_S16x512_S1024x16_1_1_0_0_n_n.contr.Idx) : (dot_S1024x512_S16x512_S1024x16_1_1_0_0_n_n.lhsIdx i q 1).val = (q ⟨0, by decide⟩).val :=
  dot_S1024x512_S16x512_S1024x16_1_1_0_0_n_n.lhsIdx_val_of_single rfl i q
theorem rA_0 (i : S1024x16.Idx) (q : dot_S1024x512_S16x512_S1024x16_1_1_0_0_n_n.contr.Idx) : (dot_S1024x512_S16x512_S1024x16_1_1_0_0_n_n.rhsIdx i q 0).val = (i 1).val := by
  unfold DotDims.rhsIdx
  rw [dif_neg (show ¬(0 : Fin S16x512.rank) ∈ dot_S1024x512_S16x512_S1024x16_1_1_0_0_n_n.rhsBatch by decide), dif_pos (show (0 : Fin S16x512.rank) ∈ dot_S1024x512_S16x512_S1024x16_1_1_0_0_n_n.rhsNonContracting by decide)]
  rfl
theorem rA_1 (i : S1024x16.Idx) (q : dot_S1024x512_S16x512_S1024x16_1_1_0_0_n_n.contr.Idx) : (dot_S1024x512_S16x512_S1024x16_1_1_0_0_n_n.rhsIdx i q 1).val = (q ⟨0, by decide⟩).val :=
  dot_S1024x512_S16x512_S1024x16_1_1_0_0_n_n.rhsIdx_val_of_single rfl i q

theorem lB_0 (i : S1024x1024.Idx) (q : dot_S1024x16_S1024x16_S1024x1024_1_1_0_0_n_n.contr.Idx) : (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lB_1 (i : S1024x1024.Idx) (q : dot_S1024x16_S1024x16_S1024x1024_1_1_0_0_n_n.contr.Idx) : (dot_S1024x16_S1024x16_S1024x1024_1_1_0_0_n_n.lhsIdx i q 1).val = (q ⟨0, by decide⟩).val :=
  dot_S1024x16_S1024x16_S1024x1024_1_1_0_0_n_n.lhsIdx_val_of_single rfl i q
theorem rB_0 (i : S1024x1024.Idx) (q : dot_S1024x16_S1024x16_S1024x1024_1_1_0_0_n_n.contr.Idx) : (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rB_1 (i : S1024x1024.Idx) (q : dot_S1024x16_S1024x16_S1024x1024_1_1_0_0_n_n.contr.Idx) : (dot_S1024x16_S1024x16_S1024x1024_1_1_0_0_n_n.rhsIdx i q 1).val = (q ⟨0, by decide⟩).val :=
  dot_S1024x16_S1024x16_S1024x1024_1_1_0_0_n_n.rhsIdx_val_of_single rfl i q

/-! ## The three products at an element -/

/-- Activations against a weight slab: row `p` of the one, row `q` of the other, over the slab's 512 input features. -/
theorem matW_apply (l : FVec Ideal S1024x512 .bf16) (r : FVec Ideal S1024x512 .bf16) (p : Fin 1024) (q : Fin 1024) :
    matmul dot_S1024x512_S1024x512_S1024x1024_1_1_0_0_n_n none l r (constant (F := Ideal) S1024x1024 .f32 0x00000000#32) (ix2 p q) = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lW_0 _ _
    | ⟨1, _⟩ => exact (lW_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rW_0 _ _
    | ⟨1, _⟩ => exact (rW_1 _ _).trans hk)
  rw [el, er]

/-- Activations against an adapter-down slab: row `p`, rank `q`, over the slab's 512 input features. -/
theorem matA_apply (l : FVec Ideal S1024x512 .bf16) (r : FVec Ideal S16x512 .bf16) (p : Fin 1024) (q : Fin 16) :
    matmul dot_S1024x512_S16x512_S1024x16_1_1_0_0_n_n none l r (constant (F := Ideal) S1024x16 .f32 0x00000000#32) (ix2 p q) = ∑ k : Fin 512, l (ix2 p k) * r (ix2 q k) := by
  simp only [matmul]
  rw [Ideal.matmul_constant_zero_apply, ← Equiv.sum_comp (contrEquiv1 dot_S1024x512_S16x512_S1024x16_1_1_0_0_n_n 512 rfl rfl).symm]
  refine Finset.sum_congr rfl fun k _ => ?_
  have hk := contrEquiv1_symm_val dot_S1024x512_S16x512_S1024x16_1_1_0_0_n_n 512 rfl rfl k
  have el : dot_S1024x512_S16x512_S1024x16_1_1_0_0_n_n.lhsIdx (ix2 p q) ((contrEquiv1 dot_S1024x512_S16x512_S1024x16_1_1_0_0_n_n 512 rfl rfl).symm k) = ix2 p k := funext fun a => Fin.ext (by
    match a with
    | ⟨0, _⟩ => exact lA_0 _ _
    | ⟨1, _⟩ => exact (lA_1 _ _).trans hk)
  have er : dot_S1024x512_S16x512_S1024x16_1_1_0_0_n_n.rhsIdx (ix2 p q) ((contrEquiv1 dot_S1024x512_S16x512_S1024x16_1_1_0_0_n_n 512 rfl rfl).symm k) = ix2 q k := funext fun a => Fin.ext (by
    match a with
    | ⟨0, _⟩ => exact rA_0 _ _
    | ⟨1, _⟩ => exact (rA_1 _ _).trans hk)
  rw [el, er]

/-- The low-rank intermediate against the adapter-up block: row `p`, output feature `q`, over the 16 ranks. -/
theorem matB_apply (l : FVec Ideal S1024x16 .bf16) (r : FVec Ideal S1024x16 .bf16) (p : Fin 1024) (q : Fin 1024) :
    matmul dot_S1024x16_S1024x16_S1024x1024_1_1_0_0_n_n none l r (constant (F := Ideal) S1024x1024 .f32 0x00000000#32) (ix2 p q) = ∑ k : Fin 16, l (ix2 p k) * r (ix2 q k) := by
  simp only [matmul]
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun a => Fin.ext (by
    match a with
    | ⟨0, _⟩ => exact lB_0 _ _
    | ⟨1, _⟩ => exact (lB_1 _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun a => Fin.ext (by
    match a with
    | ⟨0, _⟩ => exact rB_0 _ _
    | ⟨1, _⟩ => exact (rB_1 _ _).trans hk)
  rw [el, er]

/-! ## The stored values at an element -/

/-- The reset of the base accumulator stores zero. -/
theorem pay1_apply (p q : Fin 1024) : (k0_pay1 (F := Ideal)) (ix2 p q) = 0 := by
  unfold k0_pay1
  simp only [shapeCast_self]
  exact Ideal.ofBits_zero_f32

/-- The reset of the low-rank accumulator stores zero. -/
theorem pay2_apply (p : Fin 1024) (q : Fin 16) : (k0_pay2 (F := Ideal)) (ix2 p q) = 0 := by
  unfold k0_pay2
  simp only [shapeCast_self]
  exact Ideal.ofBits_zero_f32

/-- The base accumulator's update: what it held plus this slab's partial dot product. -/
theorem pay4_apply (x0 x1 : Vec Ideal S1024x512 .f32) (acc : Vec Ideal S1024x1024 .f32) (p q : Fin 1024) :
    k0_pay4 x0 x1 acc (ix2 p q) = acc (ix2 p q) + ∑ k : Fin 512, x0 (ix2 p k) * x1 (ix2 q k) := by
  unfold k0_pay4 k0_pay3
  simp only [shapeCast_self]
  exact congrArg (acc (ix2 p q) + ·) (matW_apply _ _ p q)

/-- The low-rank accumulator's update: what it held plus this slab's partial dot product against the adapter-down rows. -/
theorem pay5_apply (x0 : Vec Ideal S1024x512 .f32) (x2 : Vec Ideal S16x512 .f32) (xa : Vec Ideal S1024x16 .f32) (p : Fin 1024) (q : Fin 16) :
    k0_pay5 x0 x2 xa (ix2 p q) = xa (ix2 p q) + ∑ k : Fin 512, x0 (ix2 p k) * x2 (ix2 q k) := by
  unfold k0_pay5 k0_pay3
  simp only [shapeCast_self]
  exact congrArg (xa (ix2 p q) + ·) (matA_apply _ _ p q)

/-- A [1, 1024] row broadcast down 1024 rows reads its column. -/
theorem rowBcast_apply (v : Vec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The epilogue: the base sum, twice the low-rank product, the bias row and twice the bias-delta row. -/
theorem pay6_apply (x3 xa : Vec Ideal S1024x16 .f32) (acc : Vec Ideal S1024x1024 .f32) (x4 x5 : Vec Ideal S1x1024 .f32) (p q : Fin 1024) :
    k0_pay6 x3 xa acc x4 x5 (ix2 p q)
      = ((acc (ix2 p q) + Ideal.ofBits .f32 0x40000000#32 * ∑ k : Fin 16, xa (ix2 p k) * x3 (ix2 q k)) + x4 (ix2 (0 : Fin 1) q))
        + Ideal.ofBits .f32 0x40000000#32 * x5 (ix2 (0 : Fin 1) q) := by
  unfold k0_pay6
  simp only [shapeCast_self]
  refine congrArg₂ (· + ·) (congrArg₂ (· + ·) (congrArg (acc (ix2 p q) + ·) (congrArg (Ideal.ofBits .f32 0x40000000#32 * ·) (matB_apply _ _ p q))) (rowBcast_apply x4 p q)) ?_
  exact (rowBcast_apply _ p q)

end Cert.KernelIdeal.PayIdx

end
-- ==== Proof.Spec.lean ====
/-
  The mathematics of the fused low-rank-adapter linear layer, stated once over the extended reals with no program in sight.

  The layer's value at batch `b`, position `s`, output feature `o` is
    ((Σ_κ x[b,s,κ]·W[o,κ]  +  2·Σ_ρ (Σ_κ x[b,s,κ]·A[ρ,κ])·B[o,ρ])  +  bias[o])  +  2·δ[o],
  κ over the 4096 input features and ρ over the 16 adapter ranks (`outAt`). The kernel works on the rows flattened to
  `r = 2048·b + s` (`out2At`) and reaches each contraction over κ in eight slabs of 512 coordinates: `psum f n` is the
  sum of `f` over the first `512·n` coordinates, it starts at zero, grows by one slab's sum (`psum_succ`) and after
  eight slabs is the whole sum (`psum_eight`). Sums of extended reals commute and associate, so nothing here needs the
  summands to be finite.
-/
import Idealize.ShloMosaic.PureOps.Ideal
import Idealize.ShloMosaic.Lib.ValueIdx
import Mathlib.Algebra.BigOperators.Fin

noncomputable section

namespace Cert.LoraSpec

open Idealize.ShloMosaic Idealize.ShloMosaic.ValueIdx

/-- A function of the 4096 contraction coordinates, continued by zero past them. -/
def ext0 (f : Fin 4096 → EReal) (n : ℕ) : EReal := if h : n < 4096 then f ⟨n, h⟩ else 0

theorem ext0_of_lt (f : Fin 4096 → EReal) (n : ℕ) (h : n < 4096) : ext0 f n = f ⟨n, h⟩ := dif_pos h

/-- The sum of `f` over the first `512 · n` contraction coordinates. -/
def psum (f : Fin 4096 → EReal) (n : ℕ) : EReal := ∑ x ∈ Finset.range (512 * n), ext0 f x

/-- Over no slab the sum is zero. -/
theorem psum_zero (f : Fin 4096 → EReal) : psum f 0 = 0 := by
  unfold psum
  rw [Nat.mul_zero, Finset.range_zero, Finset.sum_empty]

/-- One more slab adds that slab's 512 terms. -/
theorem psum_succ (f : Fin 4096 → EReal) (n : ℕ) (hn : n < 8) :
    psum f (n + 1) = psum f n + ∑ kk : Fin 512, f ⟨n * 512 + kk.val, by have := kk.isLt; omega⟩ := by
  unfold psum
  rw [Nat.mul_succ, Finset.sum_range_add (ext0 f) (512 * n) 512, Finset.sum_range (fun x => ext0 f (512 * n + x))]
  congr 1
  refine Finset.sum_congr rfl fun kk _ => ?_
  rw [ext0_of_lt f _ (by have := kk.isLt; omega)]
  exact congrArg f (Fin.ext (by show 512 * n + kk.val = n * 512 + kk.val; omega))

/-- Eight slabs are the whole contraction. -/
theorem psum_eight (f : Fin 4096 → EReal) : psum f 8 = ∑ κ : Fin 4096, f κ := by
  unfold psum
  rw [show 512 * 8 = 4096 from rfl, Finset.sum_range (ext0 f)]
  exact Finset.sum_congr rfl fun κ _ => ext0_of_lt f _ κ.isLt

/-- The layer on flattened rows: row `r` of the [8192, 4096] activations against output feature `o`. -/
def out2At (X : (⟨2, ![8192, 4096]⟩ : Shape).Idx → EReal) (W : (⟨2, ![4096, 4096]⟩ : Shape).Idx → EReal)
    (b2 : (⟨2, ![1, 4096]⟩ : Shape).Idx → EReal) (Bl : (⟨2, ![4096, 16]⟩ : Shape).Idx → EReal)
    (Al : (⟨2, ![16, 4096]⟩ : Shape).Idx → EReal) (d2 : (⟨2, ![1, 4096]⟩ : Shape).Idx → EReal)
    (r : Fin 8192) (o : Fin 4096) : EReal :=
  (((∑ κ : Fin 4096, X (ix2 r κ) * W (ix2 o κ))
      + Ideal.ofBits .f32 0x40000000#32 * ∑ ρ : Fin 16, (∑ κ : Fin 4096, X (ix2 r κ) * Al (ix2 ρ κ)) * Bl (ix2 o ρ))
    + b2 (ix2 (0 : Fin 1) o))
  + Ideal.ofBits .f32 0x40000000#32 * d2 (ix2 (0 : Fin 1) o)

/-- The layer at batch `b`, position `s`, output feature `o`. -/
def outAt (x : (⟨3, ![4, 2048, 4096]⟩ : Shape).Idx → EReal) (W : (⟨2, ![4096, 4096]⟩ : Shape).Idx → EReal)
    (bias : (⟨1, ![4096]⟩ : Shape).Idx → EReal) (Bl : (⟨2, ![4096, 16]⟩ : Shape).Idx → EReal)
    (Al : (⟨2, ![16, 4096]⟩ : Shape).Idx → EReal) (db : (⟨1, ![4096]⟩ : Shape).Idx → EReal)
    (b : Fin 4) (s : Fin 2048) (o : Fin 4096) : EReal :=
  (((∑ κ : Fin 4096, x (ix3 b s κ) * W (ix2 o κ))
      + Ideal.ofBits .f32 0x40000000#32 * ∑ ρ : Fin 16, (∑ κ : Fin 4096, x (ix3 b s κ) * Al (ix2 ρ κ)) * Bl (ix2 o ρ))
    + bias (ix1 o))
  + Ideal.ofBits .f32 0x40000000#32 * db (ix1 o)

/-- The whole result array. -/
def out (x : (⟨3, ![4, 2048, 4096]⟩ : Shape).Idx → EReal) (W : (⟨2, ![4096, 4096]⟩ : Shape).Idx → EReal)
    (bias : (⟨1, ![4096]⟩ : Shape).Idx → EReal) (Bl : (⟨2, ![4096, 16]⟩ : Shape).Idx → EReal)
    (Al : (⟨2, ![16, 4096]⟩ : Shape).Idx → EReal) (db : (⟨1, ![4096]⟩ : Shape).Idx → EReal) :
    (⟨3, ![4, 2048, 4096]⟩ : Shape).Idx → EReal :=
  fun i => outAt x W bias Bl Al db (i 0) (i 1) (i 2)

theorem out_ix3 (x : (⟨3, ![4, 2048, 4096]⟩ : Shape).Idx → EReal) (W : (⟨2, ![4096, 4096]⟩ : Shape).Idx → EReal)
    (bias : (⟨1, ![4096]⟩ : Shape).Idx → EReal) (Bl : (⟨2, ![4096, 16]⟩ : Shape).Idx → EReal)
    (Al : (⟨2, ![16, 4096]⟩ : Shape).Idx → EReal) (db : (⟨1, ![4096]⟩ : Shape).Idx → EReal)
    (b : Fin 4) (s : Fin 2048) (o : Fin 4096) : out x W bias Bl Al db (ix3 b s o) = outAt x W bias Bl Al db b s o := rfl

/-- The flattened form at row `2048·b + s` is the layer at `(b, s)`, once the flattened arrays are read back. -/
theorem out2At_eq_outAt (X : (⟨2, ![8192, 4096]⟩ : Shape).Idx → EReal) (W : (⟨2, ![4096, 4096]⟩ : Shape).Idx → EReal)
    (b2 : (⟨2, ![1, 4096]⟩ : Shape).Idx → EReal) (Bl : (⟨2, ![4096, 16]⟩ : Shape).Idx → EReal)
    (Al : (⟨2, ![16, 4096]⟩ : Shape).Idx → EReal) (d2 : (⟨2, ![1, 4096]⟩ : Shape).Idx → EReal)
    (x : (⟨3, ![4, 2048, 4096]⟩ : Shape).Idx → EReal) (bias db : (⟨1, ![4096]⟩ : Shape).Idx → EReal)
    (b : Fin 4) (s : Fin 2048) (o : Fin 4096) (r : Fin 8192) (hr : r.val = b.val * 2048 + s.val)
    (hX : ∀ κ : Fin 4096, X (ix2 r κ) = x (ix3 b s κ))
    (hb : b2 (ix2 (0 : Fin 1) o) = bias (ix1 o)) (hd : d2 (ix2 (0 : Fin 1) o) = db (ix1 o)) :
    out2At X W b2 Bl Al d2 r o = outAt x W bias Bl Al db b s o := by
  unfold out2At outAt
  simp only [hX, hb, hd]

end Cert.LoraSpec

end
-- ==== Proof.Inv.lean ====
/-
  The accumulators are partial sums of the two contractions.

  After the point `t` (contraction step `t % 8`), element `(p, q)` of the base accumulator is the sum of
  `x[row, κ] · W[col, κ]` over the first `512 · (t % 8 + 1)` input features, `row` and `col` the point's row and column
  tiles at `p` and `q`; element `(p, r)` of the low-rank accumulator is the like sum of `x[row, κ] · A[r, κ]`. The first
  step of a tile starts both from zero; every other step adds one slab of 512 features to what the point before left,
  and the point before lies in the same tiles, one step earlier. By induction on the point. At the last step
  (`t % 8 = 7`) both sums run over all 4096 features.
-/
import proofs.«121367_j52819507806382_1_alg».proof.Proof.Steps
import proofs.«121367_j52819507806382_1_alg».proof.Proof.PayIdx
import proofs.«121367_j52819507806382_1_alg».proof.Proof.Spec

noncomputable section

open Idealize.ShloMosaic Idealize.ShloMosaic.TcCoe Idealize.SL.Sem

namespace Cert.KernelIdeal.Inv

open Cert.KernelIdeal Cert.KernelIdeal.Gen Cert.KernelIdeal.Blocks Cert.KernelIdeal.Steps Cert.KernelIdeal.PayIdx
open Cert.LoraSpec Idealize.ShloMosaic.ValueIdx

variable (m : (ℓ : Loc nD τ sig) → Buf (Elt Ideal) ℓ)

/-- The base product's summand at input feature `κ`, for row `p` and output feature `q` of the point's tiles. -/
def baseTerm (c : Dev nD) (t : Fin cfg0.N) (p q : Fin 1024) : Fin 4096 → EReal :=
  fun κ => Xarr m c (ix2 (rowOf t p) κ) * Warr m c (ix2 (colOf t q) κ)

/-- The low-rank product's summand at input feature `κ`, for row `p` of the point's row tile and rank `r`. -/
def lowTerm (c : Dev nD) (t : Fin cfg0.N) (p : Fin 1024) (r : Fin 16) : Fin 4096 → EReal :=
  fun κ => Xarr m c (ix2 (rowOf t p) κ) * Aarr m c (ix2 r κ)

/-- One step of the base accumulator: `k` slabs summed so far, the point's slab is the next. -/
theorem base_step (c : Dev nD) (t : Fin cfg0.N) (p q : Fin 1024) (acc : EReal) (k : ℕ) (hk : t.val % 8 = k)
    (hacc : acc = psum (baseTerm m c t p q) k) :
    acc + ∑ kk : Fin 512, xblk m c t (ix2 p kk) * wblk m c t (ix2 q kk) = psum (baseTerm m c t p q) (k + 1) := by
  have hk8 : k < 8 := by omega
  rw [psum_succ _ k hk8, hacc]
  refine congrArg (psum (baseTerm m c t p q) k + ·) (Finset.sum_congr rfl fun kk _ => ?_)
  rw [xblk_apply, wblk_apply]
  have e : kOf t kk = ⟨k * 512 + kk.val, by have := kk.isLt; omega⟩ :=
    Fin.ext (by show t.val % 8 * 512 + kk.val = k * 512 + kk.val; rw [hk])
  rw [e]
  simp only [baseTerm]

/-- One step of the low-rank accumulator. -/
theorem low_step (c : Dev nD) (t : Fin cfg0.N) (p : Fin 1024) (r : Fin 16) (acc : EReal) (k : ℕ) (hk : t.val % 8 = k)
    (hacc : acc = psum (lowTerm m c t p r) k) :
    acc + ∑ kk : Fin 512, xblk m c t (ix2 p kk) * ablk m c t (ix2 r kk) = psum (lowTerm m c t p r) (k + 1) := by
  have hk8 : k < 8 := by omega
  rw [psum_succ _ k hk8, hacc]
  refine congrArg (psum (lowTerm m c t p r) k + ·) (Finset.sum_congr rfl fun kk _ => ?_)
  rw [xblk_apply, ablk_apply]
  have e : kOf t kk = ⟨k * 512 + kk.val, by have := kk.isLt; omega⟩ :=
    Fin.ext (by show t.val % 8 * 512 + kk.val = k * 512 + kk.val; rw [hk])
  rw [e]
  simp only [lowTerm]

/-- What the two accumulators hold after point `n`. -/
def Good (c : Dev nD) (n : ℕ) (h : n < cfg0.N) : Prop :=
  (∀ p q : Fin 1024, (outsAt0 m c n h).2.1 (ix2 p q) = psum (baseTerm m c ⟨n, h⟩ p q) (n % 8 + 1))
  ∧ (∀ (p : Fin 1024) (r : Fin 16), (outsAt0 m c n h).2.2 (ix2 p r) = psum (lowTerm m c ⟨n, h⟩ p r) (n % 8 + 1))

/-- A tile's first step: one slab over zero. -/
theorem good_first (c : Dev nD) (t : Fin cfg0.N) (h0 : t.val % 8 = 0) : Good m c t.val t.isLt := by
  have h1 : ¬t.val % 8 = 7 := by omega
  refine ⟨fun p q => ?_, fun p r => ?_⟩
  · refine (congrFun (base_first m c t h0 h1) (ix2 p q)).trans ?_
    rw [pay4_apply, pay1_apply, h0]
    exact base_step m c t p q 0 0 h0 (psum_zero _).symm
  · refine (congrFun (low_first m c t h0 h1) (ix2 p r)).trans ?_
    rw [pay5_apply, pay2_apply, h0]
    exact low_step m c t p r 0 0 h0 (psum_zero _).symm

/-- Any other step: one more slab over what the point before left, which lies in the same tiles. -/
theorem good_next (c : Dev nD) (n : ℕ) (h : n + 1 < cfg0.N) (h0 : ¬(n + 1) % 8 = 0)
    (ih : Good m c n (Nat.lt_of_succ_lt h)) : Good m c (n + 1) h := by
  have hmod : (n + 1) % 8 = n % 8 + 1 := by omega
  have hrow : ∀ p : Fin 1024, rowOf ⟨n + 1, h⟩ p = rowOf ⟨n, Nat.lt_of_succ_lt h⟩ p := fun p =>
    Fin.ext (by show (n + 1) / 32 * 1024 + p.val = n / 32 * 1024 + p.val; omega)
  have hcol : ∀ q : Fin 1024, colOf ⟨n + 1, h⟩ q = colOf ⟨n, Nat.lt_of_succ_lt h⟩ q := fun q =>
    Fin.ext (by show (n + 1) / 8 % 4 * 1024 + q.val = n / 8 % 4 * 1024 + q.val; omega)
  refine ⟨fun p q => ?_, fun p r => ?_⟩
  · refine (congrFun (base_next m c ⟨n + 1, h⟩ h0) (ix2 p q)).trans ?_
    rw [pay4_apply, hmod]
    refine base_step m c ⟨n + 1, h⟩ p q _ (n % 8 + 1) hmod ?_
    refine (ih.1 p q).trans ?_
    unfold baseTerm
    simp only [hrow, hcol]
  · refine (congrFun (low_next m c ⟨n + 1, h⟩ h0) (ix2 p r)).trans ?_
    rw [pay5_apply, hmod]
    refine low_step m c ⟨n + 1, h⟩ p r _ (n % 8 + 1) hmod ?_
    refine (ih.2 p r).trans ?_
    unfold lowTerm
    simp only [hrow]

/-- The invariant at every point. -/
theorem good (c : Dev nD) : ∀ (n : ℕ) (h : n < cfg0.N), Good m c n h
  | 0, h => good_first m c ⟨0, h⟩ rfl
  | n + 1, h => by
    by_cases h0 : (n + 1) % 8 = 0
    · exact good_first m c ⟨n + 1, h⟩ h0
    · exact good_next m c n h h0 (good c n (Nat.lt_of_succ_lt h))

/-- At a tile's last step the base accumulator is the whole base product. -/
theorem base_last (c : Dev nD) (t : Fin cfg0.N) (h1 : t.val % 8 = 7) (p q : Fin 1024) :
    (outsAt0 m c t.val t.isLt).2.1 (ix2 p q) = ∑ κ : Fin 4096, Xarr m c (ix2 (rowOf t p) κ) * Warr m c (ix2 (colOf t q) κ) := by
  refine ((good m c t.val t.isLt).1 p q).trans ?_
  rw [h1]
  exact psum_eight _

/-- At a tile's last step the low-rank accumulator is the whole adapter-down product. -/
theorem low_last (c : Dev nD) (t : Fin cfg0.N) (h1 : t.val % 8 = 7) (p : Fin 1024) (r : Fin 16) :
    (outsAt0 m c t.val t.isLt).2.2 (ix2 p r) = ∑ κ : Fin 4096, Xarr m c (ix2 (rowOf t p) κ) * Aarr m c (ix2 r κ) := by
  refine ((good m c t.val t.isLt).2 p r).trans ?_
  rw [h1]
  exact psum_eight _

end Cert.KernelIdeal.Inv

end
-- ==== Proof.Final.lean ====
/-
  The kernel's program computes the layer.

  At a tile's last contraction step the point writes back its output tile: element `(p, q)` is the epilogue of the two
  accumulators, which by then hold the whole base product and the whole adapter-down product, so it is the layer on
  flattened rows at the tile's row `p` and output feature `q` (`tile_eq`, `flushed_eq`). The 8 × 4 output tiles cover the
  [8192, 4096] result — row `r`, feature `o` lies in the tile written at point `32·(r/1024) + 8·(o/1024) + 7` — so the call's
  result array is the layer on flattened rows everywhere (`final`). The line after the call re-lays it as
  [4, 2048, 4096], row `2048·b + s` becoming position `(b, s)`, which is the layer (`result_eq`, `run`).
-/
import proofs.«121367_j52819507806382_1_alg».proof.Proof.Inv

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Blocks Cert.KernelIdeal.Steps Cert.KernelIdeal.PayIdx Cert.KernelIdeal.Inv
open Cert.LoraSpec Idealize.ShloMosaic.ValueIdx

variable (m : (ℓ : Loc nD τ sig) → Buf (Elt Ideal) ℓ) (ρ : Dev nD → PrngReg)

/-- The call's result array: the layer on flattened rows. -/
def G2 (c : Dev nD) : Vec Ideal S8192x4096 .f32 :=
  fun j => out2At (Xarr m c) (Warr m c) (b2arr m c) (Barr m c) (Aarr m c) (d2arr m c) (j 0) (j 1)

theorem G2_ix2 (c : Dev nD) (r : Fin 8192) (o : Fin 4096) :
    G2 m c (ix2 r o) = out2At (Xarr m c) (Warr m c) (b2arr m c) (Barr m c) (Aarr m c) (d2arr m c) r o := rfl

/-- The output tile a last step writes, at one element. -/
theorem tile_eq (c : Dev nD) (t : Fin cfg0.N) (h1 : t.val % 8 = 7) (p q : Fin 1024) :
    k0_pay6 (bblk m c t) (outsAt0 m c t.val t.isLt).2.2 (outsAt0 m c t.val t.isLt).2.1 (biasblk m c t) (dbblk m c t) (ix2 p q)
      = G2 m c (ix2 (rowOf t p) (colOf t q)) := by
  rw [pay6_apply, G2_ix2]
  unfold out2At
  simp only [base_last m c t h1, low_last m c t h1, bblk_apply, biasblk_apply, dbblk_apply]

/-- What a last step writes back is its block of the flattened layer. -/
theorem flushed_eq (c : Dev nD) (t : Fin cfg0.N) (hf : (cfg0.win 6).flush t = true) :
    (dats m 0 c).flushed 6 t = ((cfg0.win 6).blk t).view.read (Elt Ideal) (G2 m c) := by
  have h1 : t.val % 8 = 7 := (flush0_6 t).mp hf
  have h0 : ¬t.val % 8 = 0 := by omega
  show (cfg0.win 6).cut (grid0.coords t) ((dats m 0 c).after 6 t) = _
  rw [after0_6, out_last m c t h0 h1]
  funext y
  have hp : (y 0).val < 1024 := (y 0).isLt
  have hq : (y 1).val < 1024 := (y 1).isLt
  rw [View.read_apply]
  have hy : y = ix2 (⟨(y 0).val, hp⟩ : Fin 1024) (⟨(y 1).val, hq⟩ : Fin 1024) := by
    funext a
    match a with
    | ⟨0, _⟩ => rfl
    | ⟨1, _⟩ => rfl
  have hemb : ((cfg0.win 6).blk t).view.emb y = ix2 (rowOf t ⟨(y 0).val, hp⟩) (colOf t ⟨(y 1).val, hq⟩) := by
    funext a
    apply Fin.ext
    match a with
    | ⟨0, _⟩ => show win0_6.index t 0 * 1024 + 1 * (y 0).val = t.val / 32 * 1024 + (y 0).val; rw [(idx_facts t).2.2.2.2.2.2.2.2.2.2.2.2.1]; omega
    | ⟨1, _⟩ => show win0_6.index t 1 * 1024 + 1 * (y 1).val = t.val / 8 % 4 * 1024 + (y 1).val; rw [(idx_facts t).2.2.2.2.2.2.2.2.2.2.2.2.2]; omega
  show k0_pay6 (bblk m c t) (outsAt0 m c t.val t.isLt).2.2 (outsAt0 m c t.val t.isLt).2.1 (biasblk m c t) (dbblk m c t) y
    = G2 m c (((cfg0.win 6).blk t).view.emb y)
  rw [hemb]
  exact (congrArg (k0_pay6 (bblk m c t) (outsAt0 m c t.val t.isLt).2.2 (outsAt0 m c t.val t.isLt).2.1 (biasblk m c t) (dbblk m c t)) hy).trans
    (tile_eq m c t h1 ⟨(y 0).val, hp⟩ ⟨(y 1).val, hq⟩)

/-- An index is in a point's output block iff each coordinate is in the block's range. -/
theorem mem_blk (t : Fin cfg0.N) (i : S8192x4096.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v3).slice (win0_6.rect t)).set ↔ _
  rw [View.set_slice_whole, Rect.mem_set_unit]
  exact Iff.rfl

/-- Every element of the result lies in the tile some last step writes back. -/
theorem cover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨tv, htv⟩ : ∃ tv : ℕ, tv = 32 * ((i 0).val / 1024) + 8 * ((i 1).val / 1024) + 7 := ⟨_, rfl⟩
  have hlt : tv < cfg0.N := by rw [show cfg0.N = 256 from N_0]; omega
  refine ⟨⟨tv, hlt⟩, (flush0_6 _).mpr (by show tv % 8 = 7; omega), ?_⟩
  rw [mem_blk]
  have e0 : win0_6.index ⟨tv, hlt⟩ (0 : Fin 2) = tv / 32 := (idx_facts ⟨tv, hlt⟩).2.2.2.2.2.2.2.2.2.2.2.2.1
  have e1 : win0_6.index ⟨tv, hlt⟩ (1 : Fin 2) = tv / 8 % 4 := (idx_facts ⟨tv, hlt⟩).2.2.2.2.2.2.2.2.2.2.2.2.2
  intro a
  match a with
  | ⟨0, _⟩ => show win0_6.index ⟨tv, hlt⟩ (0 : Fin 2) * 1024 ≤ (i 0).val ∧ (i 0).val < win0_6.index ⟨tv, hlt⟩ (0 : Fin 2) * 1024 + 1024; rw [e0]; omega
  | ⟨1, _⟩ => show win0_6.index ⟨tv, hlt⟩ (1 : Fin 2) * 1024 ≤ (i 1).val ∧ (i 1).val < win0_6.index ⟨tv, hlt⟩ (1 : Fin 2) * 1024 + 1024; rw [e1]; omega

/-- The call's result array ends at the flattened layer. -/
theorem final (c : Dev nD) : (dats m 0 c).arrAt 6 cfg0.N = G2 m c :=
  (dats m 0 c).arrAt_eq_of_cover 6 (G2 m c) (flushed_eq m c) cover

/-- The program's result: the call's result re-laid as [4, 2048, 4096] is the layer. -/
theorem result_eq (c : Dev nD) :
    Pipeline.afterTail₀ cfgs (dats m) 0 (V0 m) [hostOps1] c main_v4
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e : Pipeline.afterTail₀ cfgs (dats m) 0 (V0 m) [hostOps1] c main_v4
      = shapeCast S4x2048x4096 (G2 m c) shapeCasts_S8192x4096_S4x2048x4096 := by
    unfold Pipeline.afterTail₀
    show StableHlo.after hostOps1 _ (Proc.devRef .tc main_v4) = _
    after_results
    exact congrArg (fun v => shapeCast S4x2048x4096 v shapeCasts_S8192x4096_S4x2048x4096)
      ((Pipeline.withArrays_arr spec0 launch0.win.arr_inj c _ _ 6).trans (final m c))
  rw [e]
  funext i
  obtain ⟨b, s, o, rfl⟩ : ∃ (b : Fin 4) (s : Fin 2048) (o : Fin 4096), i = ix3 b s o := ⟨i 0, i 1, i 2, eq_ix3 i⟩
  rw [out_ix3]
  have hr : b.val * 2048 + s.val < 8192 := by have := b.isLt; have := s.isLt; omega
  refine (shapeCast_apply _ _ (ix3 b s o) (ix2 (⟨b.val * 2048 + s.val, hr⟩ : Fin 8192) o) ?_).trans ?_
  · rw [Shape.rowMajor_val_two, Shape.rowMajor_val_three]
    rfl
  · rw [G2_ix2, Warr_eq, Barr_eq, Aarr_eq]
    exact out2At_eq_outAt _ _ _ _ _ _ _ _ _ b s o ⟨b.val * 2048 + s.val, hr⟩ rfl
      (fun κ => Xarr_apply m c b s κ _ rfl) (b2arr_apply m c o) (d2arr_apply m c o)

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v4)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c)⟩)
    (run_main m ρ)

end Cert.KernelIdeal.Final

end
-- ==== Proof.RefSide.lean ====
/-
  The reference, read at one element, is the layer.

  The reference computes the base product `x · Wᵀ`, the low-rank chain `(x · Aᵀ) · Bᵀ` scaled by two, and adds the bias and
  twice the bias delta, each broadcast over batch and position. Read at batch `b`, position `s`, output feature `o`, every
  contraction is the plain sum over its one contracted axis and every broadcast reads the vector at `o`; the result is
  term for term `LoraSpec.outAt`.
-/
import proofs.«121367_j52819507806382_1_alg».proof.Proof.Gen.ReferenceIdeal.Read
import proofs.«121367_j52819507806382_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage is the layer, at every element. -/
theorem ref_eq_out (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (x5 : (⟨S4096, .f32⟩ : BufTy).Contents (Elt Ideal)) :
    val_main_v13 (F := Ideal) x0 x1 x2 x3 x4 x5 = Cert.LoraSpec.out x0 x1 x2 x3 x4 x5 := by
  funext i
  obtain ⟨b, s, o, rfl⟩ : ∃ (b : Fin 4) (s : Fin 2048) (o : Fin 4096), i = ix3 b s o := ⟨i 0, i 1, i 2, eq_ix3 i⟩
  rw [Cert.LoraSpec.out_ix3]
  have e0l : ∀ k : Fin 4096, lidx_main_v0 (ix3 b s o) k = ix3 b s k := fun k => funext fun a => by
    match a with | ⟨0, _⟩ => rfl | ⟨1, _⟩ => rfl | ⟨2, _⟩ => rfl
  have e0r : ∀ k : Fin 4096, ridx_main_v0 (ix3 b s o) k = ix2 o k := fun k => funext fun a => by
    match a with | ⟨0, _⟩ => rfl | ⟨1, _⟩ => rfl
  have e2l : ∀ r : Fin 16, lidx_main_v2 (ix3 b s o) r = ix3 b s r := fun r => funext fun a => by
    match a with | ⟨0, _⟩ => rfl | ⟨1, _⟩ => rfl | ⟨2, _⟩ => rfl
  have e2r : ∀ r : Fin 16, ridx_main_v2 (ix3 b s o) r = ix2 o r := fun r => funext fun a => by
    match a with | ⟨0, _⟩ => rfl | ⟨1, _⟩ => rfl
  have e1l : ∀ (r : Fin 16) (k : Fin 4096), lidx_main_v1 (ix3 b s r) k = ix3 b s k := fun r k => funext fun a => by
    match a with | ⟨0, _⟩ => rfl | ⟨1, _⟩ => rfl | ⟨2, _⟩ => rfl
  have e1r : ∀ (r : Fin 16) (k : Fin 4096), ridx_main_v1 (ix3 b s r) k = ix2 r k := fun r k => funext fun a => by
    match a with | ⟨0, _⟩ => rfl | ⟨1, _⟩ => rfl
  have e6 : idx_main_v6 (idx_main_v7 (ix3 b s o)) = ix1 o := funext fun a => by
    match a with | ⟨0, _⟩ => rfl
  have e11 : idx_main_v11 (idx_main_v12 (ix3 b s o)) = ix1 o := funext fun a => by
    match a with | ⟨0, _⟩ => rfl
  rw [val_main_v13_apply, val_main_v8_apply, val_main_v5_apply, val_main_v0_apply, val_main_v4_apply, val_main_v3_apply,
    val_main_cst_apply, val_main_v2_apply, val_main_v7_apply, val_main_v6_apply, val_main_v12_apply, val_main_v11_apply,
    val_main_v10_apply, val_main_v9_apply, val_main_cst_0_apply]
  simp only [e0l, e0r, e2l, e2r, e6, e11, val_main_v1_apply, e1l, e1r, Ideal.addf_def, Ideal.mulf_def, Ideal.ofBits_def]
  rfl

end Cert.ReferenceIdeal.RefValue

end
-- ==== Proof.lean ====
/-
  A fused linear layer with a rank-16 adapter, as one tiled kernel, against its plain formulation.

  Both programs compute, at batch `b`, position `s` and output feature `o`,
    ((Σ_κ x[b,s,κ]·W[o,κ] + 2·Σ_ρ (Σ_κ x[b,s,κ]·A[ρ,κ])·B[o,ρ]) + bias[o]) + 2·δ[o].
  The kernel flattens batch and position into 8192 rows and walks an 8 × 4 × 8 grid of 1024-row tiles, 1024-feature
  tiles and 512-wide slabs of the contraction, keeping the base product and the adapter-down product in two accumulators
  and finishing each tile at its eighth slab; the reference contracts whole axes. Over the extended reals a sum may be
  taken slab by slab, so the two agree element by element with no assumption on the inputs beyond the programs' own
  side conditions: the precondition is not used for the value.

  The kernel's frames (at the word level and idealized) and the reference's run are the generated ones; the idealization
  rewrote nothing, so there is nothing to preserve; the value is `Cert.KernelIdeal.Final.run` against the reference's
  generated run read as the layer (`Cert.ReferenceIdeal.RefValue.ref_eq_out`).
-/
import proofs.«121367_j52819507806382_1_alg».proof.Defs
import proofs.«121367_j52819507806382_1_alg».proof.Proof.Gen.Kernel
import proofs.«121367_j52819507806382_1_alg».proof.Proof.Gen.Kernel.Skeleton
import proofs.«121367_j52819507806382_1_alg».proof.Proof.Gen.Kernel.Launch
import proofs.«121367_j52819507806382_1_alg».proof.Proof.Gen.Kernel.Points
import proofs.«121367_j52819507806382_1_alg».proof.Proof.Gen.Kernel.Frame
import proofs.«121367_j52819507806382_1_alg».proof.Proof.Gen.KernelIdeal
import proofs.«121367_j52819507806382_1_alg».proof.Proof.Gen.KernelIdeal.Skeleton
import proofs.«121367_j52819507806382_1_alg».proof.Proof.Gen.KernelIdeal.Launch
import proofs.«121367_j52819507806382_1_alg».proof.Proof.Gen.KernelIdeal.Points
import proofs.«121367_j52819507806382_1_alg».proof.Proof.Gen.KernelIdeal.Frame
import proofs.«121367_j52819507806382_1_alg».proof.Proof.Gen.ReferenceIdeal
import proofs.«121367_j52819507806382_1_alg».proof.Proof.Gen.Pre_finite_inputs
import proofs.«121367_j52819507806382_1_alg».proof.Proof.Gen.ReferenceIdeal.Run
import proofs.«121367_j52819507806382_1_alg».proof.Proof.Gen.ReferenceIdeal.Read
import proofs.«121367_j52819507806382_1_alg».proof.Proof.Final
import proofs.«121367_j52819507806382_1_alg».proof.Proof.RefSide
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end at the layer of those arguments. -/
theorem algebraic : Cert.algebraic_KernelIdeal_ReferenceIdeal := by
  intro m ρ m' ρ' _ hagree
  refine ⟨fun c => Cert.LoraSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq_out,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
